-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000x128 : Shape := ⟨2, ![500000, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S500000x2 : Shape := ⟨2, ![500000, 2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S500000x128 .f32) (main_arg2 : FVec F S384x256 .f32) (main_arg3 : FVec F S256 .f32) (main_arg4 : FVec F S256x128 .f32) (main_arg5 : FVec F S128 .f32) (main_arg6 : IVec S500000x2 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S384x256 .f32 := Host.absf main_arg2
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S50000x128 : Shape := ⟨2, ![50000, 128]⟩
abbrev S500000x128 : Shape := ⟨2, ![500000, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S500000x2 : Shape := ⟨2, ![500000, 2]⟩
abbrev S500000x1 : Shape := ⟨2, ![500000, 1]⟩
abbrev S500000 : Shape := ⟨1, ![500000]⟩
abbrev S_ : Shape := ⟨0, ![]⟩
abbrev S1x256 : Shape := ⟨2, ![1, 256]⟩
abbrev S1x128 : Shape := ⟨2, ![1, 128]⟩
abbrev S4000x128 : Shape := ⟨2, ![4000, 128]⟩
abbrev S4000x384 : Shape := ⟨2, ![4000, 384]⟩
abbrev S4000x256 : Shape := ⟨2, ![4000, 256]⟩

abbrev nBuf : Space → Nat
  | .hbm => 34
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S500000x128, .f32⟩
  | .hbm, ⟨2, _⟩ => ⟨S384x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S500000x2, .i32⟩
  | .hbm, ⟨7, _⟩ => ⟨S500000x1, .i32⟩
  | .hbm, ⟨8, _⟩ => ⟨S500000, .i32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x128, .f32⟩
  | .hbm, ⟨18, _⟩ => ⟨S500000x1, .i32⟩
  | .hbm, ⟨19, _⟩ => ⟨S500000, .i32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x128, .f32⟩
  | .hbm, ⟨29, _⟩ => ⟨S384x256, .bf16⟩
  | .hbm, ⟨30, _⟩ => ⟨S256x128, .bf16⟩
  | .hbm, ⟨31, _⟩ => ⟨S1x256, .f32⟩
  | .hbm, ⟨32, _⟩ => ⟨S1x128, .f32⟩
  | .hbm, ⟨33, _⟩ => ⟨S500000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S384x256, .bf16⟩
  | .local _ .vmem, ⟨7, _⟩ => ⟨S1x256, .f32⟩
  | .local _ .vmem, ⟨8, _⟩ => ⟨S256x128, .bf16⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S500000x2_S500000x1_0_0 : S500000x2.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x2_S500000x1_0_1 : S500000x2.Slices ![0, 1] S500000x1
  bitsLt_bf16_f32 : FTy.bits .bf16 < FTy.bits .f32
  shapeCasts_S256_S1x256 : S256.ShapeCasts S1x256
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  concatenates_S4000x128_S4000x128_S4000x128_S4000x384_d1 : Shape.Concatenates [S4000x128, S4000x128, S4000x128] S4000x384 1
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S50000x128_S500000x1_S500000x128_1_0_n_n_0_1_1128_wf : GatherDims.WF S50000x128 S500000x1 S500000x128 [1] [0] [] [0] [] 1 ![1, 128]
  dot_S4000x384_S384x256_S4000x256_1_0_0_1_n_n_wf : DotDims.WF S4000x384 S384x256 S4000x256 [1] [0] [0] [1] [] []
  dot_S4000x256_S256x128_S4000x128_1_0_0_1_n_n_wf : DotDims.WF S4000x256 S256x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .f32 = 32 ∨ (Rect.block (s := S500000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .f32 = 32 ∨ (Rect.block (s := S500000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S500000x128.size a
  hwx0_2 : ∀ i : grid0.Coords, EltTy.bits .f32 = 32 ∨ (Rect.block (s := S500000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x256.size a ≤ S384x256.size a
  hwx0_3 : ∀ i : grid0.Coords, EltTy.bits .bf16 = 32 ∨ (Rect.block (s := S384x256) S384x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S500000x128.size a
  hwx0_7 : ∀ i : grid0.Coords, EltTy.bits .f32 = 32 ∨ (Rect.block (s := S500000x128) S4000x128.size (cc0_transform_7 i) (hinb0_7 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S4000x384_S384x256_S4000x256_1_0_0_1_n_n : DotDims S4000x384 S384x256 S4000x256 where
  lhsContracting := [1]
  rhsContracting := [0]
  lhsNonContracting := [0]
  rhsNonContracting := [1]
  lhsBatch := []
  rhsBatch := []
  wf := dot_S4000x384_S384x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf

abbrev win0_0 : Pipeline.Window sig grid0 :=
  Pipeline.Window.ofSpec (Memref.whole main_v8) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S384x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S500000x128 : Shape := ⟨2, ![500000, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S500000x2 : Shape := ⟨2, ![500000, 2]⟩
abbrev S500000x1 : Shape := ⟨2, ![500000, 1]⟩
abbrev S500000 : Shape := ⟨1, ![500000]⟩
abbrev S_ : Shape := ⟨0, ![]⟩
abbrev S500000x384 : Shape := ⟨2, ![500000, 384]⟩
abbrev S500000x256 : Shape := ⟨2, ![500000, 256]⟩
abbrev S1x256 : Shape := ⟨2, ![1, 256]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S500000x128, .f32⟩
  | .hbm, ⟨2, _⟩ => ⟨S384x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S500000x2, .i32⟩
  | .hbm, ⟨7, _⟩ => ⟨S500000x1, .i32⟩
  | .hbm, ⟨8, _⟩ => ⟨S500000, .i32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x128, .f32⟩
  | .hbm, ⟨18, _⟩ => ⟨S500000x1, .i32⟩
  | .hbm, ⟨19, _⟩ => ⟨S500000, .i32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x128, .f32⟩
  | .hbm, ⟨29, _⟩ => ⟨S500000x384, .f32⟩
  | .hbm, ⟨30, _⟩ => ⟨S500000x256, .f32⟩
  | .hbm, ⟨31, _⟩ => ⟨S1x256, .f32⟩
  | .hbm, ⟨32, _⟩ => ⟨S500000x256, .f32⟩
  | .hbm, ⟨33, _⟩ => ⟨S500000x256, .f32⟩
  | .hbm, ⟨34, _⟩ => ⟨S_, .f32⟩
  | .hbm, ⟨35, _⟩ => ⟨S500000x256, .f32⟩
  | .hbm, ⟨36, _⟩ => ⟨S500000x256, .f32⟩
  | .hbm, ⟨37, _⟩ => ⟨S500000x128, .f32⟩
  | .hbm, ⟨38, _⟩ => ⟨S1x128, .f32⟩
  | .hbm, ⟨39, _⟩ => ⟨S500000x128, .f32⟩
  | .hbm, ⟨40, _⟩ => ⟨S500000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  slices_S500000x2_S500000x1_0_0 : S500000x2.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x2_S500000x1_0_1 : S500000x2.Slices ![0, 1] S500000x1
  concatenates_S500000x128_S500000x128_S500000x128_S500000x384_d1 : Shape.Concatenates [S500000x128, S500000x128, S500000x128] S500000x384 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  gather_S50000x128_S500000x1_S500000x128_1_0_n_n_0_1_1128_wf : GatherDims.WF S50000x128 S500000x1 S500000x128 [1] [0] [] [0] [] 1 ![1, 128]
  dot_S500000x384_S384x256_S500000x256_1_0_0_1_n_n_wf : DotDims.WF S500000x384 S384x256 S500000x256 [1] [0] [0] [1] [] []
  dot_S500000x256_S256x128_S500000x128_1_0_0_1_n_n_wf : DotDims.WF S500000x256 S256x128 S500000x128 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x384_S384x256_S500000x256_1_0_0_1_n_n : DotDims S500000x384 S384x256 S500000x256 where
  lhsContracting := [1]
  rhsContracting := [0]
  lhsNonContracting := [0]
  rhsNonContracting := [1]
  lhsBatch := []
  rhsBatch := []
  wf := dot_S500000x384_S384x256_S500000x256_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf

class Facts : Prop extends Facts₀ where

variable [Facts]
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«104021_j14585708937338_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibThreeAbreast.lean ====
/-
  Three arrays laid side by side, read at coordinates.

  Joining an `[n, a]`, an `[n, b]` and an `[n, c]` array along the column axis gives an `[n, d]` array with
  `d = a + b + c`. Its entry at `(p, q)` is the first piece's `(p, q)` when `q < a`, the second piece's `(p, q - a)`
  when `a ≤ q < a + b`, and the third piece's `(p, q - (a + b))` when `a + b ≤ q`: the row is untouched and the column is
  counted from where its piece begins.
-/
import Idealize.ShloMosaic.Lib.ValueIdx
import Idealize.ShloMosaic.Lib.Pipeline.Value

noncomputable section

namespace Idealize.ShloMosaic.ThreeAbreast

open Idealize.ShloMosaic Idealize.ShloMosaic.ValueIdx

variable {α : Type} {n a b c d : Nat}

/-- A column inside the first piece reads the first piece at the same coordinates. -/
theorem apply_first (x₁ : (⟨2, ![n, a]⟩ : Shape).Idx → α) (x₂ : (⟨2, ![n, b]⟩ : Shape).Idx → α)
    (x₃ : (⟨2, ![n, c]⟩ : Shape).Idx → α)
    (h : Shape.Concatenates [(⟨2, ![n, a]⟩ : Shape), ⟨2, ![n, b]⟩, ⟨2, ![n, c]⟩] ⟨2, ![n, d]⟩ 1)
    (p : Fin n) (q : Fin d) (hq : q.val < a) :
    concatenate (⟨2, ![n, d]⟩ : Shape) 1 [⟨⟨2, ![n, a]⟩, x₁⟩, ⟨⟨2, ![n, b]⟩, x₂⟩, ⟨⟨2, ![n, c]⟩, x₃⟩] h (ix2 p q)
      = x₁ (ix2 p ⟨q.val, hq⟩) := by
  refine concatenate_apply_piece (t := ⟨2, ![n, d]⟩) (1 : Fin 2) [⟨⟨2, ![n, a]⟩, x₁⟩, ⟨⟨2, ![n, b]⟩, x₂⟩, ⟨⟨2, ![n, c]⟩, x₃⟩] h (ix2 p q) 0
    (show (0 : Nat) < 3 by omega) ⟨2, ![n, a]⟩ x₁ rfl rfl 0 rfl
    (ix2 p ⟨q.val, hq⟩) (fun e he => ?_) ?_
  · match e with
    | ⟨0, _⟩ => rfl
    | ⟨1, _⟩ => exact absurd rfl he
  · show 0 + q.val = q.val
    omega

/-- A column inside the second piece reads the second piece, its column counted from the first piece's width. -/
theorem apply_second (x₁ : (⟨2, ![n, a]⟩ : Shape).Idx → α) (x₂ : (⟨2, ![n, b]⟩ : Shape).Idx → α)
    (x₃ : (⟨2, ![n, c]⟩ : Shape).Idx → α)
    (h : Shape.Concatenates [(⟨2, ![n, a]⟩ : Shape), ⟨2, ![n, b]⟩, ⟨2, ![n, c]⟩] ⟨2, ![n, d]⟩ 1)
    (p : Fin n) (q : Fin d) (hlo : a ≤ q.val) (hhi : q.val - a < b) :
    concatenate (⟨2, ![n, d]⟩ : Shape) 1 [⟨⟨2, ![n, a]⟩, x₁⟩, ⟨⟨2, ![n, b]⟩, x₂⟩, ⟨⟨2, ![n, c]⟩, x₃⟩] h (ix2 p q)
      = x₂ (ix2 p ⟨q.val - a, hhi⟩) := by
  refine concatenate_apply_piece (t := ⟨2, ![n, d]⟩) (1 : Fin 2) [⟨⟨2, ![n, a]⟩, x₁⟩, ⟨⟨2, ![n, b]⟩, x₂⟩, ⟨⟨2, ![n, c]⟩, x₃⟩] h (ix2 p q) 1
    (show (1 : Nat) < 3 by omega) ⟨2, ![n, b]⟩ x₂ rfl rfl a ?_
    (ix2 p ⟨q.val - a, hhi⟩) (fun e he => ?_) ?_
  · show a + 0 = a
    omega
  · match e with
    | ⟨0, _⟩ => rfl
    | ⟨1, _⟩ => exact absurd rfl he
  · show a + (q.val - a) = q.val
    omega

/-- A column past the first two pieces reads the third piece, its column counted from their joint width. -/
theorem apply_third (x₁ : (⟨2, ![n, a]⟩ : Shape).Idx → α) (x₂ : (⟨2, ![n, b]⟩ : Shape).Idx → α)
    (x₃ : (⟨2, ![n, c]⟩ : Shape).Idx → α)
    (h : Shape.Concatenates [(⟨2, ![n, a]⟩ : Shape), ⟨2, ![n, b]⟩, ⟨2, ![n, c]⟩] ⟨2, ![n, d]⟩ 1)
    (p : Fin n) (q : Fin d) (hlo : a + b ≤ q.val) (hhi : q.val - (a + b) < c) :
    concatenate (⟨2, ![n, d]⟩ : Shape) 1 [⟨⟨2, ![n, a]⟩, x₁⟩, ⟨⟨2, ![n, b]⟩, x₂⟩, ⟨⟨2, ![n, c]⟩, x₃⟩] h (ix2 p q)
      = x₃ (ix2 p ⟨q.val - (a + b), hhi⟩) := by
  refine concatenate_apply_piece (t := ⟨2, ![n, d]⟩) (1 : Fin 2) [⟨⟨2, ![n, a]⟩, x₁⟩, ⟨⟨2, ![n, b]⟩, x₂⟩, ⟨⟨2, ![n, c]⟩, x₃⟩] h (ix2 p q) 2
    (show (2 : Nat) < 3 by omega) ⟨2, ![n, c]⟩ x₃ rfl rfl (a + b) ?_
    (ix2 p ⟨q.val - (a + b), hhi⟩) (fun e he => ?_) ?_
  · show a + (b + 0) = a + b
    omega
  · match e with
    | ⟨0, _⟩ => rfl
    | ⟨1, _⟩ => exact absurd rfl he
  · show a + b + (q.val - (a + b)) = q.val
    omega

end Idealize.ShloMosaic.ThreeAbreast

end
-- ==== Proof.Spec.lean ====
/-
  What one edge's output row is, as a function of that edge's three input rows and the layer parameters.

  The feature row of an edge is its sender's node row, its receiver's node row and its own attribute row laid end to
  end: 384 numbers. The hidden row is `max (feature · W₁ + b₁, 0)`, 256 numbers; the output row is
  `hidden · W₂ + b₂`, 128 numbers. Everything is on the extended reals, the sums over the whole shared axis; the zero
  the rectifier compares with is kept as the word both programs print.
-/
import Idealize.ShloMosaic.PureOps.Ideal
import Idealize.ShloMosaic.Lib.ValueIdx

noncomputable section

open scoped BigOperators

namespace Cert.EdgeMlp

open Idealize.ShloMosaic Idealize.ShloMosaic.ValueIdx

/-- The zero both programs compare with in the rectifier: the all-zero f32 word read at the ideal instance. -/
abbrev zeroWord : EReal := FloatOps.ofBits (F := Ideal) .f32 0x00000000#32

/-- The feature row: columns 0–127 the sender's row, 128–255 the receiver's, 256–383 the edge's own attributes. -/
def featRow (s r e : Fin 128 → EReal) (k : Fin 384) : EReal :=
  if h₁ : k.val < 128 then s ⟨k.val, h₁⟩
  else if h₂ : k.val - 128 < 128 then r ⟨k.val - 128, h₂⟩
  else e ⟨k.val - (128 + 128), by have := k.isLt; omega⟩

/-- One hidden unit: the feature row against column `h` of the first weight matrix, plus the bias, rectified. -/
def hiddenUnit (f : Fin 384 → EReal) (W₁ : Fin 384 → Fin 256 → EReal) (b₁ : Fin 256 → EReal) (h : Fin 256) : EReal :=
  max ((∑ k : Fin 384, f k * W₁ k h) + b₁ h) zeroWord

/-- One output entry: the hidden row against column `q` of the second weight matrix, plus the bias. -/
def outEntry (f : Fin 384 → EReal) (W₁ : Fin 384 → Fin 256 → EReal) (b₁ : Fin 256 → EReal)
    (W₂ : Fin 256 → Fin 128 → EReal) (b₂ : Fin 128 → EReal) (q : Fin 128) : EReal :=
  (∑ h : Fin 256, hiddenUnit f W₁ b₁ h * W₂ h q) + b₂ q

/-- The whole result array from whole operand arrays: entry `(e, q)` is `outEntry` of row `e` of the gathered sender
    rows `S`, of the gathered receiver rows `R` and of the edge attributes `A`. -/
def wholeOut (S R A : (⟨2, ![500000, 128]⟩ : Shape).Idx → EReal) (W₁ : Fin 384 → Fin 256 → EReal) (b₁ : Fin 256 → EReal)
    (W₂ : Fin 256 → Fin 128 → EReal) (b₂ : Fin 128 → EReal) : (⟨2, ![500000, 128]⟩ : Shape).Idx → EReal :=
  fun i => outEntry (featRow (fun k => S (ix2 (i 0) k)) (fun k => R (ix2 (i 0) k)) (fun k => A (ix2 (i 0) k))) W₁ b₁ W₂ b₂ (i 1)

theorem wholeOut_apply (S R A : (⟨2, ![500000, 128]⟩ : Shape).Idx → EReal) (W₁ : Fin 384 → Fin 256 → EReal)
    (b₁ : Fin 256 → EReal) (W₂ : Fin 256 → Fin 128 → EReal) (b₂ : Fin 128 → EReal) (e : Fin 500000) (q : Fin 128) :
    wholeOut S R A W₁ b₁ W₂ b₂ (ix2 e q)
      = outEntry (featRow (fun k => S (ix2 e k)) (fun k => R (ix2 e k)) (fun k => A (ix2 e k))) W₁ b₁ W₂ b₂ q := rfl

end Cert.EdgeMlp

end
-- ==== Proof.KernelEntry.lean ====
/-
  The kernel body's stored value, read at one entry of its 4000-row block.

  At row `p` the body joins the three 128-wide input rows into one 384-wide feature row, multiplies it with the first
  weight matrix into a zero accumulator, adds the bias row, rectifies against zero, multiplies with the second weight
  matrix into a zero accumulator and adds the second bias row. The two narrowings to bf16 in front of the products are
  the identity on the extended reals, so entry `(p, q)` is the specification's `outEntry` of row `p` of the three inputs.
-/
import proofs.«104021_j14585708937338_1_alg».proof.Proof.Gen.KernelIdeal.Skeleton
import proofs.«104021_j14585708937338_1_alg».proof.Proof.LibPlainDotAny
import proofs.«104021_j14585708937338_1_alg».proof.Proof.LibThreeAbreast
import proofs.«104021_j14585708937338_1_alg».proof.Proof.Spec
import Idealize.ShloMosaic.Lib.Pipeline.Value

noncomputable section

open scoped BigOperators

namespace Cert.KernelIdeal.Entry

open Cert.KernelIdeal Cert.KernelIdeal.Gen Idealize.ShloMosaic Idealize.ShloMosaic.ValueIdx Cert.EdgeMlp

/-- The first product's dimension numbers are those of a plain 4000×384 by 384×256 product. -/
theorem dot1_plain : dot_S4000x384_S384x256_S4000x256_1_0_0_1_n_n = DotDims.plain 4000 384 256 := rfl
/-- The second product's dimension numbers are those of a plain 4000×256 by 256×128 product. -/
theorem dot2_plain : dot_S4000x256_S256x128_S4000x128_1_0_0_1_n_n = DotDims.plain 4000 256 128 := rfl

/-- The joined feature block at `(p, k)` is the feature row of row `p` of the three input blocks. -/
theorem feat_entry (x0 x1 x2 : Vec Ideal S4000x128 .f32) (p : Fin 4000) (k : Fin 384) :
    concatenate S4000x384 1 [⟨S4000x128, x0⟩, ⟨S4000x128, x1⟩, ⟨S4000x128, x2⟩]
        concatenates_S4000x128_S4000x128_S4000x128_S4000x384_d1 (ix2 p k)
      = featRow (fun k => x0 (ix2 p k)) (fun k => x1 (ix2 p k)) (fun k => x2 (ix2 p k)) k := by
  unfold featRow
  by_cases h₁ : k.val < 128
  · rw [dif_pos h₁]
    exact ThreeAbreast.apply_first (n := 4000) (a := 128) (b := 128) (c := 128) (d := 384) x0 x1 x2 _ p k h₁
  · rw [dif_neg h₁]
    by_cases h₂ : k.val - 128 < 128
    · rw [dif_pos h₂]
      exact ThreeAbreast.apply_second (n := 4000) (a := 128) (b := 128) (c := 128) (d := 384) x0 x1 x2 _ p k (by omega) h₂
    · rw [dif_neg h₂]
      exact ThreeAbreast.apply_third (n := 4000) (a := 128) (b := 128) (c := 128) (d := 384) x0 x1 x2 _ p k (by omega)
        (by have := k.isLt; omega)

/-- A one-row array repeated down 4000 rows, at `(p, h)`, is the row's entry `h` (256 columns). -/
theorem row256_entry (x : Vec Ideal S1x256 .f32) (p : Fin 4000) (h : Fin 256) :
    broadcastTo S4000x256 (shapeCast S1x256 x shapeCasts_S1x256_S1x256) broadcasts_S1x256_S4000x256 (ix2 p h)
      = x (ix2 0 h) := by
  rw [shapeCast_self]
  refine broadcastTo_apply x _ (ix2 p h) (ix2 0 h) (fun a => ?_)
  match a with
  | ⟨0, _⟩ => rfl
  | ⟨1, _⟩ => rfl

/-- A one-row array repeated down 4000 rows, at `(p, q)`, is the row's entry `q` (128 columns). -/
theorem row128_entry (x : Vec Ideal S1x128 .f32) (p : Fin 4000) (q : Fin 128) :
    broadcastTo S4000x128 (shapeCast S1x128 x shapeCasts_S1x128_S1x128) broadcasts_S1x128_S4000x128 (ix2 p q)
      = x (ix2 0 q) := by
  rw [shapeCast_self]
  refine broadcastTo_apply x _ (ix2 p q) (ix2 0 q) (fun a => ?_)
  match a with
  | ⟨0, _⟩ => rfl
  | ⟨1, _⟩ => rfl

/-- The body's rectified hidden block, 4000×256: the joined feature block against the first weight matrix into a zero
    accumulator, plus the bias row repeated down the rows, rectified against zero. -/
def hidBlock (x0 x1 x2 : Vec Ideal S4000x128 .f32) (x3 : Vec Ideal S384x256 .bf16) (x4 : Vec Ideal S1x256 .f32) :
    FVec Ideal S4000x256 .f32 :=
  maximumf (F := Ideal)
    (addf (matmul dot_S4000x384_S384x256_S4000x256_1_0_0_1_n_n none
        (truncf .bf16 (concatenate S4000x384 1 [⟨S4000x128, shapeCast S4000x128 x0 shapeCasts_S4000x128_S4000x128⟩,
            ⟨S4000x128, shapeCast S4000x128 x1 shapeCasts_S4000x128_S4000x128⟩, ⟨S4000x128, x2⟩]
          concatenates_S4000x128_S4000x128_S4000x128_S4000x384_d1) bitsLt_bf16_f32)
        (shapeCast S384x256 x3 shapeCasts_S384x256_S384x256 : FVec Ideal S384x256 .bf16) (constant S4000x256 .f32 0x00000000#32))
      (broadcastTo S4000x256 (shapeCast S1x256 x4 shapeCasts_S1x256_S1x256) broadcasts_S1x256_S4000x256))
    (broadcast S4000x256 (Scalar.ofBits .f32 0x00000000#32))

/-- The rectified hidden block at `(p, h)` is hidden unit `h` of row `p`. -/
theorem hidden_entry (x0 x1 x2 : Vec Ideal S4000x128 .f32) (x3 : Vec Ideal S384x256 .bf16) (x4 : Vec Ideal S1x256 .f32)
    (p : Fin 4000) (h : Fin 256) :
    hidBlock x0 x1 x2 x3 x4 (ix2 p h)
      = hiddenUnit (featRow (fun k => x0 (ix2 p k)) (fun k => x1 (ix2 p k)) (fun k => x2 (ix2 p k)))
          (fun k h => x3 (ix2 k h)) (fun h => x4 (ix2 0 h)) h := by
  unfold hiddenUnit hidBlock
  rw [maximumf_apply, addf_apply, broadcast_apply, row256_entry, shapeCast_self, shapeCast_self, shapeCast_self]
  refine congrArg (fun z => max (z + x4 (ix2 0 h)) zeroWord) ?_
  refine (PlainDot.matmul_zero_apply_any 4000 384 256 (φ₁ := .bf16) (φ₂ := .bf16) none _ _ (ix2 p h)).trans ?_
  refine Finset.sum_congr rfl fun k _ => ?_
  rw [truncf_apply]
  exact congrArg (· * x3 (ix2 k h)) (feat_entry x0 x1 x2 p k)

/-- THE BODY'S STORED VALUE at `(p, q)`: the specification's output entry `q` of row `p` of the three input blocks,
    with the weights and bias rows as loaded. -/
theorem pay_entry (x0 x1 x2 : Vec Ideal S4000x128 .f32) (x3 : Vec Ideal S384x256 .bf16) (x4 : Vec Ideal S1x256 .f32)
    (x5 : Vec Ideal S256x128 .bf16) (x6 : Vec Ideal S1x128 .f32) (p : Fin 4000) (q : Fin 128) :
    k0_pay1 (F := Ideal) x0 x1 x2 x3 x4 x5 x6 (ix2 p q)
      = outEntry (featRow (fun k => x0 (ix2 p k)) (fun k => x1 (ix2 p k)) (fun k => x2 (ix2 p k)))
          (fun k h => x3 (ix2 k h)) (fun h => x4 (ix2 0 h)) (fun h o => x5 (ix2 h o)) (fun o => x6 (ix2 0 o)) q := by
  have shape : k0_pay1 (F := Ideal) x0 x1 x2 x3 x4 x5 x6
      = addf (matmul dot_S4000x256_S256x128_S4000x128_1_0_0_1_n_n none
            (truncf .bf16 (hidBlock x0 x1 x2 x3 x4) bitsLt_bf16_f32)
            (shapeCast S256x128 x5 shapeCasts_S256x128_S256x128 : FVec Ideal S256x128 .bf16) (constant S4000x128 .f32 0x00000000#32))
          (broadcastTo S4000x128 (shapeCast S1x128 x6 shapeCasts_S1x128_S1x128) broadcasts_S1x128_S4000x128) := rfl
  rw [shape]
  unfold outEntry
  rw [addf_apply, row128_entry]
  refine congrArg (· + x6 (ix2 0 q)) ?_
  refine (PlainDot.matmul_zero_apply_any 4000 256 128 (φ₁ := .bf16) (φ₂ := .bf16) none _ _ (ix2 p q)).trans ?_
  refine Finset.sum_congr rfl fun h _ => ?_
  rw [truncf_apply, shapeCast_self]
  exact congrArg (· * x5 (ix2 h q)) (hidden_entry x0 x1 x2 x3 x4 p h)

end Cert.KernelIdeal.Entry

end
-- ==== Proof.KernelWhole.lean ====
/-
  The kernel's whole result array.

  The grid has 125 points; point `t` handles rows `4000·t … 4000·t + 3999` of the three row-blocked inputs and of the
  output, and sees the two weight matrices and the two bias rows whole. So what point `t` writes back is block `t` of
  ONE whole-array function: entry `(e, q)` is the specification's output entry `q` of row `e` of the gathered sender
  rows, the gathered receiver rows and the edge attributes. The 125 blocks tile the 500000 rows, so that function is the
  array after the run.
-/
import proofs.«104021_j14585708937338_1_alg».proof.Proof.Gen.KernelIdeal.Value
import proofs.«104021_j14585708937338_1_alg».proof.Proof.KernelEntry

noncomputable section

open scoped BigOperators

namespace Cert.KernelIdeal.Whole

open Cert.KernelIdeal Cert.KernelIdeal.Gen Cert.KernelIdeal.Value Cert.KernelIdeal.Entry
open Idealize.ShloMosaic Idealize.ShloMosaic.TcCoe Idealize.SL.Sem Idealize.ShloMosaic.ValueIdx Cert.EdgeMlp
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The kernel's result as ONE function of the arrays the region finds: the specification's whole array of the gathered
    sender rows, the gathered receiver rows, the edge attributes, the two (narrowed) weight matrices and the two bias rows. -/
def G (c : Dev nD) : S500000x128.Idx → Elt Ideal .f32 :=
  wholeOut (V m c main_v8) (V m c main_v17) (V m c main_arg1)
    (fun k h => V m c main_v18 (ix2 k h)) (fun h => V m c main_v20 (ix2 0 h))
    (fun h o => V m c main_v19 (ix2 h o)) (fun o => V m c main_v21 (ix2 0 o))

/-- The index maps, decided over the 125 points: the three row-blocked inputs and the output sit at block row `t`,
    block column 0; the weights and bias rows at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of point `t`'s block is row `4000·t + p` of the array. -/
def rowOf (t : Fin cfg0.N) (p : Fin 4000) : Fin 500000 :=
  ⟨t.val * 4000 + p.val, by have ht : t.val < 125 := t.isLt; have hp := p.isLt; omega⟩

/-! Where a block's entry sits in its array: for the row-blocked windows (the gathered sender rows, the gathered
    receiver rows, the edge attributes, the output) at the block's row offset; for the weights and bias rows, which every
    point sees whole, at the same coordinates. -/

theorem emb_rows0 (t : Fin cfg0.N) (p : Fin 4000) (k : Fin 128) :
    ((cfg0.win 0).blk t).view.emb (ix2 p k) = ix2 (rowOf t p) k := by
  obtain ⟨e00, e01, -⟩ := idx_facts t
  funext a; apply Fin.ext
  match a with
  | ⟨0, _⟩ => show win0_0.index t (0 : Fin 2) * 4000 + 1 * p.val = t.val * 4000 + p.val; omega
  | ⟨1, _⟩ => show win0_0.index t (1 : Fin 2) * 128 + 1 * k.val = k.val; omega

theorem emb_rows1 (t : Fin cfg0.N) (p : Fin 4000) (k : Fin 128) :
    ((cfg0.win 1).blk t).view.emb (ix2 p k) = ix2 (rowOf t p) k := by
  obtain ⟨-, -, e10, e11, -⟩ := idx_facts t
  funext a; apply Fin.ext
  match a with
  | ⟨0, _⟩ => show win0_1.index t (0 : Fin 2) * 4000 + 1 * p.val = t.val * 4000 + p.val; omega
  | ⟨1, _⟩ => show win0_1.index t (1 : Fin 2) * 128 + 1 * k.val = k.val; omega

theorem emb_rows2 (t : Fin cfg0.N) (p : Fin 4000) (k : Fin 128) :
    ((cfg0.win 2).blk t).view.emb (ix2 p k) = ix2 (rowOf t p) k := by
  obtain ⟨-, -, -, -, e20, e21, -⟩ := idx_facts t
  funext a; apply Fin.ext
  match a with
  | ⟨0, _⟩ => show win0_2.index t (0 : Fin 2) * 4000 + 1 * p.val = t.val * 4000 + p.val; omega
  | ⟨1, _⟩ => show win0_2.index t (1 : Fin 2) * 128 + 1 * k.val = k.val; omega

theorem emb_rows7 (t : Fin cfg0.N) (p : Fin 4000) (q : Fin 128) :
    ((cfg0.win 7).blk t).view.emb (ix2 p q) = ix2 (rowOf t p) q := by
  obtain ⟨-, -, -, -, -, -, -, -, -, -, -, -, -, -, e70, e71⟩ := idx_facts t
  funext a; apply Fin.ext
  match a with
  | ⟨0, _⟩ => show win0_7.index t (0 : Fin 2) * 4000 + 1 * p.val = t.val * 4000 + p.val; omega
  | ⟨1, _⟩ => show win0_7.index t (1 : Fin 2) * 128 + 1 * q.val = q.val; omega

theorem emb_whole3 (t : Fin cfg0.N) (k : Fin 384) (h : Fin 256) :
    ((cfg0.win 3).blk t).view.emb (ix2 k h) = ix2 k h := by
  obtain ⟨-, -, -, -, -, -, e30, e31, -⟩ := idx_facts t
  funext a; apply Fin.ext
  match a with
  | ⟨0, _⟩ => show win0_3.index t (0 : Fin 2) * 384 + 1 * k.val = k.val; omega
  | ⟨1, _⟩ => show win0_3.index t (1 : Fin 2) * 256 + 1 * h.val = h.val; omega

theorem emb_whole4 (t : Fin cfg0.N) (h : Fin 256) :
    ((cfg0.win 4).blk t).view.emb (ix2 (0 : Fin 1) h) = ix2 (0 : Fin 1) h := by
  obtain ⟨-, -, -, -, -, -, -, -, e40, e41, -⟩ := idx_facts t
  funext a; apply Fin.ext
  match a with
  | ⟨0, _⟩ => show win0_4.index t (0 : Fin 2) * 1 + 1 * 0 = 0; omega
  | ⟨1, _⟩ => show win0_4.index t (1 : Fin 2) * 256 + 1 * h.val = h.val; omega

theorem emb_whole5 (t : Fin cfg0.N) (h : Fin 256) (o : Fin 128) :
    ((cfg0.win 5).blk t).view.emb (ix2 h o) = ix2 h o := by
  obtain ⟨-, -, -, -, -, -, -, -, -, -, e50, e51, -⟩ := idx_facts t
  funext a; apply Fin.ext
  match a with
  | ⟨0, _⟩ => show win0_5.index t (0 : Fin 2) * 256 + 1 * h.val = h.val; omega
  | ⟨1, _⟩ => show win0_5.index t (1 : Fin 2) * 128 + 1 * o.val = o.val; omega

theorem emb_whole6 (t : Fin cfg0.N) (o : Fin 128) :
    ((cfg0.win 6).blk t).view.emb (ix2 (0 : Fin 1) o) = ix2 (0 : Fin 1) o := by
  obtain ⟨-, -, -, -, -, -, -, -, -, -, -, -, e60, e61, -⟩ := idx_facts t
  funext a; apply Fin.ext
  match a with
  | ⟨0, _⟩ => show win0_6.index t (0 : Fin 2) * 1 + 1 * 0 = 0; omega
  | ⟨1, _⟩ => show win0_6.index t (1 : Fin 2) * 128 + 1 * o.val = o.val; omega

/-! Each input window's block at point `t`, read at an entry, is its array at the entry's place in the array. -/

theorem blk0 (c : Dev nD) (t : Fin cfg0.N) (p : Fin 4000) (k : Fin 128) :
    iblk m c 0 t (ix2 p k) = V m c main_v8 (ix2 (rowOf t p) k) := by
  show V m c main_v8 (((cfg0.win 0).blk t).view.emb (ix2 p k)) = _
  rw [emb_rows0]
theorem blk1 (c : Dev nD) (t : Fin cfg0.N) (p : Fin 4000) (k : Fin 128) :
    iblk m c 1 t (ix2 p k) = V m c main_v17 (ix2 (rowOf t p) k) := by
  show V m c main_v17 (((cfg0.win 1).blk t).view.emb (ix2 p k)) = _
  rw [emb_rows1]
theorem blk2 (c : Dev nD) (t : Fin cfg0.N) (p : Fin 4000) (k : Fin 128) :
    iblk m c 2 t (ix2 p k) = V m c main_arg1 (ix2 (rowOf t p) k) := by
  show V m c main_arg1 (((cfg0.win 2).blk t).view.emb (ix2 p k)) = _
  rw [emb_rows2]
theorem blk3 (c : Dev nD) (t : Fin cfg0.N) (k : Fin 384) (h : Fin 256) :
    iblk m c 3 t (ix2 k h) = V m c main_v18 (ix2 k h) := by
  show V m c main_v18 (((cfg0.win 3).blk t).view.emb (ix2 k h)) = _
  rw [emb_whole3]
theorem blk4 (c : Dev nD) (t : Fin cfg0.N) (h : Fin 256) :
    iblk m c 4 t (ix2 (0 : Fin 1) h) = V m c main_v20 (ix2 (0 : Fin 1) h) := by
  show V m c main_v20 (((cfg0.win 4).blk t).view.emb (ix2 (0 : Fin 1) h)) = _
  rw [emb_whole4]
theorem blk5 (c : Dev nD) (t : Fin cfg0.N) (h : Fin 256) (o : Fin 128) :
    iblk m c 5 t (ix2 h o) = V m c main_v19 (ix2 h o) := by
  show V m c main_v19 (((cfg0.win 5).blk t).view.emb (ix2 h o)) = _
  rw [emb_whole5]
theorem blk6 (c : Dev nD) (t : Fin cfg0.N) (o : Fin 128) :
    iblk m c 6 t (ix2 (0 : Fin 1) o) = V m c main_v21 (ix2 (0 : Fin 1) o) := by
  show V m c main_v21 (((cfg0.win 6).blk t).view.emb (ix2 (0 : Fin 1) o)) = _
  rw [emb_whole6]

/-- The body's stored value at point `t`, entry `(p, q)`, is `G` at row `4000·t + p`, column `q`. -/
theorem pay_at (c : Dev nD) (t : Fin cfg0.N) (p : Fin 4000) (q : Fin 128) :
    k0_pay1 (F := Ideal) (iblk m c 0 t) (iblk m c 1 t) (iblk m c 2 t) (iblk m c 3 t) (iblk m c 4 t) (iblk m c 5 t)
      (iblk m c 6 t) (ix2 p q) = G m c (ix2 (rowOf t p) q) := by
  refine (pay_entry (iblk m c 0 t) (iblk m c 1 t) (iblk m c 2 t) (iblk m c 3 t) (iblk m c 4 t) (iblk m c 5 t)
    (iblk m c 6 t) p q).trans ?_
  unfold G
  rw [wholeOut_apply]
  simp only [blk0, blk1, blk2, blk3, blk4, blk5, blk6]

/-- WHAT POINT `t` WRITES BACK is block `t` of `G`. -/
theorem flushed_eq (c : Dev nD) (t : Fin cfg0.N) :
    (dats m 0 c).flushed 7 t = ((cfg0.win 7).blk t).view.read (Elt Ideal) (G m c) := by
  rw [flushed7]
  unfold out0_7
  rw [View.canon_unit_zero hz]
  simp only [View.ld_unit_zero (S := S4000x128) hz, View.ld_unit_zero (S := S384x256) hz, View.ld_unit_zero (S := S1x256) hz,
    View.ld_unit_zero (S := S256x128) hz, View.ld_unit_zero (S := S1x128) hz]
  refine funext fun (j : S4000x128.Idx) => ?_
  obtain ⟨p, q, rfl⟩ : ∃ (p : Fin 4000) (q : Fin 128), j = ix2 p q := ⟨j 0, j 1, eq_ix2 j⟩
  show k0_pay1 (F := Ideal) (iblk m c 0 t) (iblk m c 1 t) (iblk m c 2 t) (iblk m c 3 t) (iblk m c 4 t) (iblk m c 5 t)
      (iblk m c 6 t) (ix2 p q) = G m c (((cfg0.win 7).blk t).view.emb (ix2 p q))
  rw [emb_rows7]
  exact pay_at m c t p q

/-- An index of the array is in point `t`'s block iff each coordinate is in the block's range on its axis. -/
theorem mem_blk (t : Fin cfg0.N) (i : S500000x128.Idx) :
    i ∈ ((cfg0.win 7).blk t).view.set ↔ ∀ a : Fin 2, win0_7.index t a * S4000x128.size a ≤ (i a).val
      ∧ (i a).val < win0_7.index t a * S4000x128.size a + S4000x128.size a := by
  show i ∈ ((View.whole main_v22).slice (win0_7.rect t)).set ↔ _
  rw [View.set_slice_whole, Rect.mem_set_unit]
  exact Iff.rfl

/-- Every index of the array is in some point's block: row `r` is in block `r / 4000`. -/
theorem cover (i : S500000x128.Idx) :
    ∃ t : Fin cfg0.N, (cfg0.win 7).flush t = true ∧ i ∈ ((cfg0.win 7).blk t).view.set := by
  have hi0 : (i 0).val < 500000 := (i 0).isLt
  have hi1 : (i 1).val < 128 := (i 1).isLt
  let t : Fin cfg0.N := ⟨(i 0).val / 4000, by show (i 0).val / 4000 < 125; omega⟩
  obtain ⟨-, -, -, -, -, -, -, -, -, -, -, -, -, -, e70, e71⟩ := idx_facts t
  have ht : t.val = (i 0).val / 4000 := rfl
  refine ⟨t, flush0_7 t, ?_⟩
  rw [mem_blk]
  intro a
  match a with
  | ⟨0, _⟩ => show win0_7.index t (0 : Fin 2) * 4000 ≤ (i 0).val ∧ (i 0).val < win0_7.index t (0 : Fin 2) * 4000 + 4000; omega
  | ⟨1, _⟩ => show win0_7.index t (1 : Fin 2) * 128 ≤ (i 1).val ∧ (i 1).val < win0_7.index t (1 : Fin 2) * 128 + 128; omega

/-- THE ARRAY after the run is `G`. -/
theorem final (c : Dev nD) : (dats m 0 c).arrAt 7 cfg0.N = G m c :=
  (dats m 0 c).arrAt_eq_of_cover 7 (G m c) (fun t _ => flushed_eq m c t) cover

end Cert.KernelIdeal.Whole

end
-- ==== Proof.RefEntry.lean ====
/-
  The reference's result, read at one entry.

  The reference joins the gathered sender rows, the gathered receiver rows and the edge attributes into one
  500000×384 feature array, multiplies it with the first weight matrix, adds the bias repeated down the rows,
  rectifies against zero, multiplies with the second weight matrix and adds the second bias. Entry `(e, q)` is the
  specification's `outEntry` of row `e` of the three joined arrays; the two gathers stay as the program states them.
-/
import proofs.«104021_j14585708937338_1_alg».proof.Proof.Gen.ReferenceIdeal.Read
import proofs.«104021_j14585708937338_1_alg».proof.Proof.LibThreeAbreast
import proofs.«104021_j14585708937338_1_alg».proof.Proof.Spec

noncomputable section

open scoped BigOperators

namespace Cert.ReferenceIdeal.Entry

open Cert.ReferenceIdeal Cert.ReferenceIdeal.Gen Cert.ReferenceIdeal.Read Idealize.ShloMosaic Idealize.ShloMosaic.ValueIdx
open Cert.EdgeMlp

/-- The joined feature array at `(e, k)` is the feature row of row `e` of its three pieces. -/
theorem feat_entry (S R A : Vec Ideal S500000x128 .f32) (e : Fin 500000) (k : Fin 384) :
    concatenate S500000x384 1 [⟨S500000x128, S⟩, ⟨S500000x128, R⟩, ⟨S500000x128, A⟩]
        concatenates_S500000x128_S500000x128_S500000x128_S500000x384_d1 (ix2 e k)
      = featRow (fun k => S (ix2 e k)) (fun k => R (ix2 e k)) (fun k => A (ix2 e k)) k := by
  unfold featRow
  by_cases h₁ : k.val < 128
  · rw [dif_pos h₁]
    exact ThreeAbreast.apply_first (n := 500000) (a := 128) (b := 128) (c := 128) (d := 384) S R A _ e k h₁
  · rw [dif_neg h₁]
    by_cases h₂ : k.val - 128 < 128
    · rw [dif_pos h₂]
      exact ThreeAbreast.apply_second (n := 500000) (a := 128) (b := 128) (c := 128) (d := 384) S R A _ e k (by omega) h₂
    · rw [dif_neg h₂]
      exact ThreeAbreast.apply_third (n := 500000) (a := 128) (b := 128) (c := 128) (d := 384) S R A _ e k (by omega)
        (by have := k.isLt; omega)

/-! The index functions the stage lemmas compose, at explicit coordinates. -/

theorem lidx19 (e : Fin 500000) (h : Fin 256) (k : Fin 384) : lidx_main_v19 (ix2 e h) k = ix2 e k :=
  funext fun a => Fin.ext (by match a with | ⟨0, _⟩ => rfl | ⟨1, _⟩ => rfl)
theorem ridx19 (e : Fin 500000) (h : Fin 256) (k : Fin 384) : ridx_main_v19 (ix2 e h) k = ix2 k h :=
  funext fun a => Fin.ext (by match a with | ⟨0, _⟩ => rfl | ⟨1, _⟩ => rfl)
theorem idx21 (e : Fin 500000) (h : Fin 256) : idx_main_v20 (idx_main_v21 (ix2 e h)) = ix1 h :=
  funext fun a => Fin.ext (by match a with | ⟨0, _⟩ => rfl)
theorem lidx24 (e : Fin 500000) (q : Fin 128) (h : Fin 256) : lidx_main_v24 (ix2 e q) h = ix2 e h :=
  funext fun a => Fin.ext (by match a with | ⟨0, _⟩ => rfl | ⟨1, _⟩ => rfl)
theorem ridx24 (e : Fin 500000) (q : Fin 128) (h : Fin 256) : ridx_main_v24 (ix2 e q) h = ix2 h q :=
  funext fun a => Fin.ext (by match a with | ⟨0, _⟩ => rfl | ⟨1, _⟩ => rfl)
theorem idx26 (e : Fin 500000) (q : Fin 128) : idx_main_v25 (idx_main_v26 (ix2 e q)) = ix1 q :=
  funext fun a => Fin.ext (by match a with | ⟨0, _⟩ => rfl)

/-- The rectified hidden array at `(e, h)` is hidden unit `h` of row `e`. -/
theorem hidden_entry (x0 : Vec Ideal S50000x128 .f32) (x1 : Vec Ideal S500000x128 .f32) (x2 : Vec Ideal S384x256 .f32)
    (x3 : Vec Ideal S256 .f32) (x6 : Vec Ideal S500000x2 .i32) (e : Fin 500000) (h : Fin 256) :
    val_main_v23 (F := Ideal) x0 x1 x2 x3 x6 (ix2 e h)
      = hiddenUnit (featRow (fun k => val_main_v8 (F := Ideal) x0 x6 (ix2 e k))
            (fun k => val_main_v17 (F := Ideal) x0 x6 (ix2 e k)) (fun k => x1 (ix2 e k)))
          (fun k h => x2 (ix2 k h)) (fun h => x3 (ix1 h)) h := by
  rw [val_main_v23_apply, val_main_v22_apply, val_main_v19_apply, val_main_v21_apply, val_main_v20_apply,
    val_main_call0_v0_apply, val_main_call0_cst_apply, idx21]
  unfold hiddenUnit
  rw [Ideal.maximumf_def, Ideal.addf_def]
  refine congrArg (fun z => max (z + x3 (ix1 h)) zeroWord) ?_
  refine Finset.sum_congr rfl fun k _ => ?_
  rw [lidx19, ridx19]
  exact congrArg (· * x2 (ix2 k h)) (feat_entry _ _ _ e k)

/-- THE REFERENCE'S RESULT at `(e, q)`: the specification's output entry `q` of row `e`. -/
theorem result_entry (x0 : Vec Ideal S50000x128 .f32) (x1 : Vec Ideal S500000x128 .f32) (x2 : Vec Ideal S384x256 .f32)
    (x3 : Vec Ideal S256 .f32) (x4 : Vec Ideal S256x128 .f32) (x5 : Vec Ideal S128 .f32) (x6 : Vec Ideal S500000x2 .i32)
    (e : Fin 500000) (q : Fin 128) :
    val_main_v27 (F := Ideal) x0 x1 x2 x3 x4 x5 x6 (ix2 e q)
      = outEntry (featRow (fun k => val_main_v8 (F := Ideal) x0 x6 (ix2 e k))
            (fun k => val_main_v17 (F := Ideal) x0 x6 (ix2 e k)) (fun k => x1 (ix2 e k)))
          (fun k h => x2 (ix2 k h)) (fun h => x3 (ix1 h)) (fun h o => x4 (ix2 h o)) (fun o => x5 (ix1 o)) q := by
  rw [val_main_v27_apply, val_main_v24_apply, val_main_v26_apply, val_main_v25_apply, idx26]
  unfold outEntry
  rw [Ideal.addf_def]
  refine congrArg (· + x5 (ix1 q)) ?_
  refine Finset.sum_congr rfl fun h _ => ?_
  rw [lidx24, ridx24]
  exact congrArg (· * x4 (ix2 h q)) (hidden_entry x0 x1 x2 x3 x6 e h)

/-- The reference's whole result array is the specification's whole array of the gathered rows, the edge attributes
    and the parameters. -/
theorem result_whole (x0 : Vec Ideal S50000x128 .f32) (x1 : Vec Ideal S500000x128 .f32) (x2 : Vec Ideal S384x256 .f32)
    (x3 : Vec Ideal S256 .f32) (x4 : Vec Ideal S256x128 .f32) (x5 : Vec Ideal S128 .f32) (x6 : Vec Ideal S500000x2 .i32) :
    val_main_v27 (F := Ideal) x0 x1 x2 x3 x4 x5 x6
      = wholeOut (val_main_v8 (F := Ideal) x0 x6) (val_main_v17 (F := Ideal) x0 x6) x1
          (fun k h => x2 (ix2 k h)) (fun h => x3 (ix1 h)) (fun h o => x4 (ix2 h o)) (fun o => x5 (ix1 o)) := by
  funext i
  obtain ⟨e, q, rfl⟩ : ∃ (e : Fin 500000) (q : Fin 128), i = ix2 e q := ⟨i 0, i 1, eq_ix2 i⟩
  rw [wholeOut_apply]
  exact result_entry x0 x1 x2 x3 x4 x5 x6 e q

end Cert.ReferenceIdeal.Entry

end
-- ==== Proof.LibRowOfVector.lean ====
/-
  A vector recast as a one-row matrix, read at an index.

  Recasting an `[n]` vector as a `[1, n]` array keeps the row-major order, so the entry at `(0, i)` is the vector's
  entry `i`.
-/
import Idealize.ShloMosaic.Lib.ValueIdx
import Idealize.ShloMosaic.Lib.Pipeline.Value

noncomputable section

namespace Idealize.ShloMosaic.RowOfVector

open Idealize.ShloMosaic Idealize.ShloMosaic.ValueIdx

variable {α : Type} {n : Nat}

/-- The one-row recast of a vector at `(0, i)` is the vector at `i`. -/
theorem apply (x : (⟨1, ![n]⟩ : Shape).Idx → α) (h : (⟨1, ![n]⟩ : Shape).ShapeCasts ⟨2, ![1, n]⟩) (i : Fin n) :
    shapeCast (⟨2, ![1, n]⟩ : Shape) x h (ix2 (0 : Fin 1) i) = x (ix1 i) := by
  refine shapeCast_apply x h (ix2 (0 : Fin 1) i) (ix1 i) ?_
  rw [Shape.rowMajor_val_one, Shape.rowMajor_val_two]
  show i.val = 0 * n + i.val
  omega

end Idealize.ShloMosaic.RowOfVector

end
-- ==== Proof.Bridge.lean ====
/-
  The arrays the kernel's region finds, as functions of the launch arguments — in the reference's own terms.

  Before the region the kernel's host side prepares its operands: the sender and receiver rows are gathered from the
  node array by the two index columns, by the very operations the reference states for them; the two weight matrices are
  narrowed to bf16, the identity on the extended reals; the two bias vectors are recast as one-row arrays. So the
  kernel's whole-array function of what the region finds is the specification's whole array of the reference's gathered
  rows, the edge attributes and the parameters as launched.
-/
import proofs.«104021_j14585708937338_1_alg».proof.Proof.KernelWhole
import proofs.«104021_j14585708937338_1_alg».proof.Proof.RefEntry
import proofs.«104021_j14585708937338_1_alg».proof.Proof.LibRowOfVector
import Idealize.ShloMosaic.Lib.StableHlo.Run

noncomputable section

namespace Cert.KernelIdeal.Whole

open Cert.KernelIdeal Cert.KernelIdeal.Gen
open Idealize.ShloMosaic Idealize.ShloMosaic.TcCoe Idealize.SL.Sem Idealize.ShloMosaic.ValueIdx Cert.EdgeMlp
open Idealize.ShloMosaic.StableHlo

variable (m : (ℓ : Loc nD τ sig) → Buf (Elt Ideal) ℓ)

/-- The sender rows the region finds are the reference's gather by the first index column. -/
theorem sender_eq (c : Dev nD) :
    (V m c main_v8 : S500000x128.Idx → EReal)
      = Cert.ReferenceIdeal.Read.val_main_v8 (F := Ideal) (m ((c : Thread nD τ).loc main_arg0)) (m ((c : Thread nD τ).loc main_arg6)) := by
  dsimp only [Gen.V, Gen.hostOps0]
  after_results
  rfl

set_option maxHeartbeats 2000000 in
/-- The receiver rows the region finds are the reference's gather by the second index column. -/
theorem receiver_eq (c : Dev nD) :
    (V m c main_v17 : S500000x128.Idx → EReal)
      = Cert.ReferenceIdeal.Read.val_main_v17 (F := Ideal) (m ((c : Thread nD τ).loc main_arg0)) (m ((c : Thread nD τ).loc main_arg6)) := by
  dsimp only [Gen.V, Gen.hostOps0]
  after_results
  rfl

/-- The first weight matrix the region finds, narrowed to bf16, is the matrix as launched. -/
theorem w1_eq (c : Dev nD) (k : Fin 384) (h : Fin 256) :
    (V m c main_v18 : S384x256.Idx → EReal) (ix2 k h) = m ((c : Thread nD τ).loc main_arg2) (ix2 k h) := by
  have e : (V m c main_v18 : S384x256.Idx → EReal) = truncf (F := Ideal) .bf16 (m ((c : Thread nD τ).loc main_arg2)) bitsLt_bf16_f32 := by
    dsimp only [Gen.V, Gen.hostOps0]
    after_results
  rw [e]
  rfl

/-- The second weight matrix the region finds, narrowed to bf16, is the matrix as launched. -/
theorem w2_eq (c : Dev nD) (h : Fin 256) (o : Fin 128) :
    (V m c main_v19 : S256x128.Idx → EReal) (ix2 h o) = m ((c : Thread nD τ).loc main_arg4) (ix2 h o) := by
  have e : (V m c main_v19 : S256x128.Idx → EReal) = truncf (F := Ideal) .bf16 (m ((c : Thread nD τ).loc main_arg4)) bitsLt_bf16_f32 := by
    dsimp only [Gen.V, Gen.hostOps0]
    after_results
  rw [e]
  rfl

/-- The first bias row the region finds at `(0, h)` is the bias vector's entry `h`. -/
theorem b1_eq (c : Dev nD) (h : Fin 256) :
    (V m c main_v20 : S1x256.Idx → EReal) (ix2 (0 : Fin 1) h) = m ((c : Thread nD τ).loc main_arg3) (ix1 h) := by
  have e : (V m c main_v20 : S1x256.Idx → EReal) = shapeCast S1x256 (m ((c : Thread nD τ).loc main_arg3)) shapeCasts_S256_S1x256 := by
    dsimp only [Gen.V, Gen.hostOps0]
    after_results
    rfl
  rw [e]
  exact RowOfVector.apply (n := 256) _ _ h

/-- The second bias row the region finds at `(0, o)` is the bias vector's entry `o`. -/
theorem b2_eq (c : Dev nD) (o : Fin 128) :
    (V m c main_v21 : S1x128.Idx → EReal) (ix2 (0 : Fin 1) o) = m ((c : Thread nD τ).loc main_arg5) (ix1 o) := by
  have e : (V m c main_v21 : S1x128.Idx → EReal) = shapeCast S1x128 (m ((c : Thread nD τ).loc main_arg5)) shapeCasts_S128_S1x128 := by
    dsimp only [Gen.V, Gen.hostOps0]
    after_results
    rfl
  rw [e]
  exact RowOfVector.apply (n := 128) _ _ o

/-- THE KERNEL'S RESULT as a function of the launch arguments: the specification's whole array of the reference's two
    gathers, the edge attributes and the parameters. -/
theorem G_eq (c : Dev nD) :
    G m c = wholeOut
      (Cert.ReferenceIdeal.Read.val_main_v8 (F := Ideal) (m ((c : Thread nD τ).loc main_arg0)) (m ((c : Thread nD τ).loc main_arg6)))
      (Cert.ReferenceIdeal.Read.val_main_v17 (F := Ideal) (m ((c : Thread nD τ).loc main_arg0)) (m ((c : Thread nD τ).loc main_arg6)))
      (m ((c : Thread nD τ).loc main_arg1))
      (fun k h => m ((c : Thread nD τ).loc main_arg2) (ix2 k h)) (fun h => m ((c : Thread nD τ).loc main_arg3) (ix1 h))
      (fun h o => m ((c : Thread nD τ).loc main_arg4) (ix2 h o)) (fun o => m ((c : Thread nD τ).loc main_arg5) (ix1 o)) := by
  have e1 : (fun (k : Fin 384) (h : Fin 256) => V m c main_v18 (ix2 k h))
      = fun k h => m ((c : Thread nD τ).loc main_arg2) (ix2 k h) := funext fun k => funext fun h => w1_eq m c k h
  have e2 : (fun h : Fin 256 => V m c main_v20 (ix2 (0 : Fin 1) h))
      = fun h => m ((c : Thread nD τ).loc main_arg3) (ix1 h) := funext fun h => b1_eq m c h
  have e3 : (fun (h : Fin 256) (o : Fin 128) => V m c main_v19 (ix2 h o))
      = fun h o => m ((c : Thread nD τ).loc main_arg4) (ix2 h o) := funext fun h => funext fun o => w2_eq m c h o
  have e4 : (fun o : Fin 128 => V m c main_v21 (ix2 (0 : Fin 1) o))
      = fun o => m ((c : Thread nD τ).loc main_arg5) (ix1 o) := funext fun o => b2_eq m c o
  unfold G
  rw [sender_eq, receiver_eq, V_main_arg1, e1, e2, e3, e4]

end Cert.KernelIdeal.Whole

end
-- ==== Proof.lean ====
/-
  Edge update of a message-passing layer: for each of 500000 edges, the sender's and the receiver's 128-wide node rows
  (gathered from a 50000-row node array by the edge's two indices) and the edge's own 128-wide attribute row are joined
  into a 384-wide feature row, which goes through a two-layer perceptron: `max (feature · W₁ + b₁, 0) · W₂ + b₂`.

  The kernel gathers the rows on the host by the same operations the reference states, and then runs the perceptron in one
  region of 125 grid points, 4000 edges each, with both matrix products fed bf16 operands and accumulated in f32 from zero.
  The reference joins the whole arrays and runs the same perceptron with `dot_general`s in f32. On the extended reals a
  change of float format is the identity and a product into a zero accumulator is the plain sum over the shared axis, so
  both results are one function of the arguments: entry `(e, q)` is the specification's `outEntry` of edge `e`'s three
  rows (Proof/Spec.lean). The kernel's entry is read off its stored value block by block (Proof/KernelEntry.lean,
  Proof/KernelWhole.lean, Proof/Bridge.lean), the reference's off its stages (Proof/RefEntry.lean). No law beyond
  reading the two sides at an index is needed, so the precondition is never opened.
-/
import proofs.«104021_j14585708937338_1_alg».proof.Defs
import proofs.«104021_j14585708937338_1_alg».proof.Proof.Gen.Kernel
import proofs.«104021_j14585708937338_1_alg».proof.Proof.Gen.Kernel.Skeleton
import proofs.«104021_j14585708937338_1_alg».proof.Proof.Gen.Kernel.Launch
import proofs.«104021_j14585708937338_1_alg».proof.Proof.Gen.Kernel.Points
import proofs.«104021_j14585708937338_1_alg».proof.Proof.Gen.Kernel.Frame
import proofs.«104021_j14585708937338_1_alg».proof.Proof.Gen.KernelIdeal
import proofs.«104021_j14585708937338_1_alg».proof.Proof.Gen.KernelIdeal.Skeleton
import proofs.«104021_j14585708937338_1_alg».proof.Proof.Gen.KernelIdeal.Launch
import proofs.«104021_j14585708937338_1_alg».proof.Proof.Gen.KernelIdeal.Points
import proofs.«104021_j14585708937338_1_alg».proof.Proof.Gen.KernelIdeal.Frame
import proofs.«104021_j14585708937338_1_alg».proof.Proof.Gen.ReferenceIdeal
import proofs.«104021_j14585708937338_1_alg».proof.Proof.Gen.Pre_finite_inputs
import proofs.«104021_j14585708937338_1_alg».proof.Proof.Gen.KernelIdeal.Value
import proofs.«104021_j14585708937338_1_alg».proof.Proof.Gen.ReferenceIdeal.Run
import proofs.«104021_j14585708937338_1_alg».proof.Proof.Gen.ReferenceIdeal.Read
import proofs.«104021_j14585708937338_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the specification's whole array of the two
    gathers of the node array, the edge attributes and the layer parameters. -/
theorem algebraic : Cert.algebraic_KernelIdeal_ReferenceIdeal := by
  intro m ρ m' ρ' _ hagree
  refine ⟨fun c => Cert.KernelIdeal.Whole.G m c, ?_, ?_⟩
  · exact (θ_run Cert.KernelIdeal.defs _ _).mono
      (fun r h c => ⟨(h c).1.trans (Cert.KernelIdeal.Whole.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v27_eq, Cert.ReferenceIdeal.Entry.result_whole, h0, h1, h2, h3, h4, h5, h6]
    exact (Cert.KernelIdeal.Whole.G_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
